-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S1024x4 .f32) (main_arg6 : FVec F S4 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4 .f32 := Host.absf main_arg5
  let main_cst_6 : FVec F S_ .f32 := constant S_ .f32 0x7F800000#32
  let main_v20 : FVec F S1024x4 .f32 := broadcastInDim S1024x4 ![] bcast_S_S1024x4 main_cst_6
  let main_v21 : IVec S1024x4 1 := cmpf .olt main_v19 main_v20
  let main_c_7 : IVec S_ 1 := constantI S_ 1 1#1
  let main_v22 : IVec S_ 1 := (fun x v => Host.reduce IntOp.andi x v reducesTo_S1024x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S100000x1024 .f32) (main_arg1 : IVec S100000 32) (main_arg2 : FVec F S1024x1024 .f32) (main_arg3 : FVec F S1024x1024 .f32) (main_arg4 : FVec F S1024 .f32) (main_arg5 : FVec F S1024x4 .f32) (main_arg6 : FVec F S4 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S100000x1 : Shape := ⟨2, ![100000, 1]⟩
abbrev S1x1024 : Shape := ⟨2, ![1, 1024]⟩
abbrev S1x4 : Shape := ⟨2, ![1, 4]⟩
abbrev S100000x4 : Shape := ⟨2, ![100000, 4]⟩
abbrev S1000x1024 : Shape := ⟨2, ![1000, 1024]⟩
abbrev S1000x1 : Shape := ⟨2, ![1000, 1]⟩
abbrev S1000x4 : Shape := ⟨2, ![1000, 4]⟩

abbrev nBuf : Space → Nat
  | .hbm => 14
  | .vmem => 11
  | .smem => 0
  | _ => 0

abbrev bufTy : (tb : Table) → Fin (tcTables nBuf tb) → BufTy
  | .hbm, ⟨0, _⟩ => ⟨S100000x1024, .f32⟩
  | .hbm, ⟨1, _⟩ => ⟨S100000, .i32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S100000x1, .i32⟩
  | .hbm, ⟨8, _⟩ => ⟨S1024x1024, .bf16⟩
  | .hbm, ⟨9, _⟩ => ⟨S1024x1024, .bf16⟩
  | .hbm, ⟨10, _⟩ => ⟨S1024x4, .bf16⟩
  | .hbm, ⟨11, _⟩ => ⟨S1x1024, .f32⟩
  | .hbm, ⟨12, _⟩ => ⟨S1x4, .f32⟩
  | .hbm, ⟨13, _⟩ => ⟨S100000x4, .f32⟩
  | .local _ .vmem, ⟨0, _⟩ => ⟨S1000x1024, .f32⟩
  | .local _ .vmem, ⟨1, _⟩ => ⟨S1000x1024, .f32⟩
  | .local _ .vmem, ⟨2, _⟩ => ⟨S1000x1, .i32⟩
  | .local _ .vmem, ⟨3, _⟩ => ⟨S1000x1, .i32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x4, .bf16⟩
  | .local _ .vmem, ⟨8, _⟩ => ⟨S1x4, .f32⟩
  | .local _ .vmem, ⟨9, _⟩ => ⟨S1000x4, .f32⟩
  | .local _ .vmem, ⟨10, _⟩ => ⟨S1000x4, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100000_S100000x1 : S100000.ShapeCasts S100000x1
  bitsLt_bf16_f32 : FTy.bits .bf16 < FTy.bits .f32
  shapeCasts_S1024_S1x1024 : S1024.ShapeCasts S1x1024
  shapeCasts_S4_S1x4 : S4.ShapeCasts S1x4
  inb_S1000x1024_S1000x1024_0_0 : ∀ a, (![0, 0] : Fin 2 → Nat) a + S1000x1024.size a ≤ S1000x1024.size a
  h_S1000x1024 : 0 < S1000x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  natLt_1_32 : 1 < 32
  broadcasts_S1000x1_S1000x1024 : S1000x1.Broadcasts S1000x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1000x4 : S1x4.Broadcasts S1000x4
  inb_S1000x4_S1000x4_0_0 : ∀ a, (![0, 0] : Fin 2 → Nat) a + S1000x4.size a ≤ S1000x4.size a
  h_S1000x4 : 0 < S1000x4.numel
  dot_S1000x1024_S1024x1024_S1000x1024_1_0_0_1_n_n_wf : DotDims.WF S1000x1024 S1024x1024 S1000x1024 [1] [0] [0] [1] [] []
  dot_S1000x1024_S1024x4_S1000x4_1_0_0_1_n_n_wf : DotDims.WF S1000x1024 S1024x4 S1000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S100000x1024.size a
  hwx0_0 : ∀ i : grid0.Coords, EltTy.bits .f32 = 32 ∨ (Rect.block (s := S100000x1024) S1000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .i32 = 32 ∨ (Rect.block (s := S100000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .bf16 = 32 ∨ (Rect.block (s := S1024x4) S1024x4.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x4.size a ≤ S100000x4.size a
  hwx0_7 : ∀ i : grid0.Coords, EltTy.bits .f32 = 32 ∨ (Rect.block (s := S100000x4) S1000x4.size (cc0_transform_7 i) (hinb0_7 i)).WholeWords (EltTy.packing .f32)

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x4_S1000x4_1_0_0_1_n_n : DotDims S1000x1024 S1024x4 S1000x4 where
  lhsContracting := [1]
  rhsContracting := [0]
  lhsNonContracting := [0]
  rhsNonContracting := [1]
  lhsBatch := []
  rhsBatch := []
  wf := dot_S1000x1024_S1024x4_S1000x4_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S_ : Shape := ⟨0, ![]⟩
abbrev S1x1024 : Shape := ⟨2, ![1, 1024]⟩
abbrev S100000x1 : Shape := ⟨2, ![100000, 1]⟩
abbrev S1x4 : Shape := ⟨2, ![1, 4]⟩
abbrev S100000x4 : Shape := ⟨2, ![100000, 4]⟩
abbrev S100000x4x1 : Shape := ⟨3, ![100000, 4, 1]⟩
abbrev S100000x4x256 : Shape := ⟨3, ![100000, 4, 256]⟩

abbrev nBuf : Space → Nat
  | .hbm => 53
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S100000, .i32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S100000x1024, .f32⟩
  | .hbm, ⟨8, _⟩ => ⟨S_, .f32⟩
  | .hbm, ⟨9, _⟩ => ⟨S100000x1024, .f32⟩
  | .hbm, ⟨10, _⟩ => ⟨S100000x1024, .f32⟩
  | .hbm, ⟨11, _⟩ => ⟨S100000x1024, .f32⟩
  | .hbm, ⟨12, _⟩ => ⟨S100000x1024, .f32⟩
  | .hbm, ⟨13, _⟩ => ⟨S_, .f32⟩
  | .hbm, ⟨14, _⟩ => ⟨S100000x1024, .f32⟩
  | .hbm, ⟨15, _⟩ => ⟨S100000x1024, .f32⟩
  | .hbm, ⟨16, _⟩ => ⟨S_, .f32⟩
  | .hbm, ⟨17, _⟩ => ⟨S100000x1024, .f32⟩
  | .hbm, ⟨18, _⟩ => ⟨S100000x1024, .f32⟩
  | .hbm, ⟨19, _⟩ => ⟨S100000x1024, .f32⟩
  | .hbm, ⟨20, _⟩ => ⟨S100000x1024, .f32⟩
  | .hbm, ⟨21, _⟩ => ⟨S_, .f32⟩
  | .hbm, ⟨22, _⟩ => ⟨S100000x1024, .f32⟩
  | .hbm, ⟨23, _⟩ => ⟨S100000x1024, .f32⟩
  | .hbm, ⟨24, _⟩ => ⟨S1x1024, .f32⟩
  | .hbm, ⟨25, _⟩ => ⟨S100000x1024, .f32⟩
  | .hbm, ⟨26, _⟩ => ⟨S100000x1024, .f32⟩
  | .hbm, ⟨27, _⟩ => ⟨S100000x1024, .f32⟩
  | .hbm, ⟨28, _⟩ => ⟨S100000x1024, .f32⟩
  | .hbm, ⟨29, _⟩ => ⟨S_, .f32⟩
  | .hbm, ⟨30, _⟩ => ⟨S100000x1024, .f32⟩
  | .hbm, ⟨31, _⟩ => ⟨S100000x1024, .f32⟩
  | .hbm, ⟨32, _⟩ => ⟨S_, .f32⟩
  | .hbm, ⟨33, _⟩ => ⟨S100000x1024, .f32⟩
  | .hbm, ⟨34, _⟩ => ⟨S100000x1024, .f32⟩
  | .hbm, ⟨35, _⟩ => ⟨S100000x1024, .f32⟩
  | .hbm, ⟨36, _⟩ => ⟨S100000x1, .i32⟩
  | .hbm, ⟨37, _⟩ => ⟨S1x4, .i32⟩
  | .hbm, ⟨38, _⟩ => ⟨S100000x4, .i32⟩
  | .hbm, ⟨39, _⟩ => ⟨S100000x4, .i32⟩
  | .hbm, ⟨40, _⟩ => ⟨S100000x4, .i1⟩
  | .hbm, ⟨41, _⟩ => ⟨S100000x4, .f32⟩
  | .hbm, ⟨42, _⟩ => ⟨S100000x4x1, .f32⟩
  | .hbm, ⟨43, _⟩ => ⟨S100000x4x256, .f32⟩
  | .hbm, ⟨44, _⟩ => ⟨S100000x1024, .f32⟩
  | .hbm, ⟨45, _⟩ => ⟨S100000x1024, .f32⟩
  | .hbm, ⟨46, _⟩ => ⟨S100000x4, .f32⟩
  | .hbm, ⟨47, _⟩ => ⟨S_, .f32⟩
  | .hbm, ⟨48, _⟩ => ⟨S100000x4, .f32⟩
  | .hbm, ⟨49, _⟩ => ⟨S100000x4, .f32⟩
  | .hbm, ⟨50, _⟩ => ⟨S1x4, .f32⟩
  | .hbm, ⟨51, _⟩ => ⟨S100000x4, .f32⟩
  | .hbm, ⟨52, _⟩ => ⟨S100000x4, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v10 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  bcast_S_S100000x1024 : S_.BroadcastsInDim S100000x1024 (![] : Fin 0 → Fin S100000x1024.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  bcast_S100000x4_S100000x4x1_0_1 : S100000x4.BroadcastsInDim S100000x4x1 (![0, 1] : Fin 2 → Fin S100000x4x1.rank)
  bcast_S100000x4x1_S100000x4x256_0_1_2 : S100000x4x1.BroadcastsInDim S100000x4x256 (![0, 1, 2] : Fin 3 → Fin S100000x4x256.rank)
  shapeCasts_S100000x4x256_S100000x1024 : S100000x4x256.ShapeCasts S100000x1024
  bcast_S_S100000x4 : S_.BroadcastsInDim S100000x4 (![] : Fin 0 → Fin S100000x4.rank)
  bcast_S4_S1x4_1 : S4.BroadcastsInDim S1x4 (![1] : Fin 1 → Fin S1x4.rank)
  dot_S100000x1024_S1024x1024_S100000x1024_1_0_0_1_n_n_wf : DotDims.WF S100000x1024 S1024x1024 S100000x1024 [1] [0] [0] [1] [] []
  dot_S100000x1024_S1024x4_S100000x4_1_0_0_1_n_n_wf : DotDims.WF S100000x1024 S1024x4 S100000x4 [1] [0] [0] [1] [] []

variable [Facts₀]

def dot_S100000x1024_S1024x1024_S100000x1024_1_0_0_1_n_n : DotDims S100000x1024 S1024x1024 S100000x1024 where
  lhsContracting := [1]
  rhsContracting := [0]
  lhsNonContracting := [0]
  rhsNonContracting := [1]
  lhsBatch := []
  rhsBatch := []
  wf := dot_S100000x1024_S1024x1024_S100000x1024_1_0_0_1_n_n_wf
def dot_S100000x1024_S1024x4_S100000x4_1_0_0_1_n_n : DotDims S100000x1024 S1024x4 S100000x4 where
  lhsContracting := [1]
  rhsContracting := [0]
  lhsNonContracting := [0]
  rhsNonContracting := [1]
  lhsBatch := []
  rhsBatch := []
  wf := dot_S100000x1024_S1024x4_S100000x4_1_0_0_1_n_n_wf

class Facts : Prop extends Facts₀ where

variable [Facts]
-- ==== Proof.HeadSpec.lean ====
/-
  What both programs compute, one ROW at a time. Row `n` of `x` (1024 numbers) goes through a dense layer of width
  1024 scaled by 1/32 = 1/sqrt 1024 and a SiLU gate, a second dense layer with bias and gate, a mask that keeps the 256
  channels of the row's head (channel `c` belongs to head `c / 256`), and a last dense layer to 4 numbers, scaled by 1/32
  and biased. Nothing mixes two rows, so the whole array is this function of each row, its head word and the weights.
  The sums are plain sums of products of extended reals over the 1024 contracted channels; no law of arithmetic is
  needed to join the two programs, only that each spells this function.
-/
import Idealize.ShloMosaic.PureOps.Ideal
import Idealize.ShloMosaic.PureOps.Ideal.Laws
import Idealize.ShloMosaic.Lib.ValueIdx
import Idealize.ShloMosaic.Lib.IdealHost

noncomputable section

namespace Cert.HeadSpec

open Idealize.ShloMosaic

/-- The scale 1/32 as the f32 word both programs print; the same word on both sides, never evaluated. -/
abbrev scale : EReal := Ideal.ofBits .f32 0x3D000000#32

/-- SiLU: `z · σ(z)`, with `σ(z) = 1 / (1 + e^(-z))`. -/
def silu (z : EReal) : EReal := z * Ideal.logistic z

/-- The first layer at channel `c`: the gate of the scaled product of the row with column `c` of `W1`. -/
def layer1 (xrow : Fin 1024 → EReal) (W1 : Fin 1024 → Fin 1024 → EReal) (c : Fin 1024) : EReal :=
  silu ((∑ k : Fin 1024, xrow k * W1 k c) * scale)

/-- The second layer at channel `c`: the gate of the scaled product with column `c` of `Wm`, plus the bias. -/
def layer2 (h : Fin 1024 → EReal) (Wm : Fin 1024 → Fin 1024 → EReal) (bm : Fin 1024 → EReal) (c : Fin 1024) : EReal :=
  silu ((∑ k : Fin 1024, h k * Wm k c) * scale + bm c)

/-- The head mask at channel `c` for a row whose head word is `hw`: one where `hw` is the word of `c / 256`, else zero
    (so zero everywhere for a head word outside 0..3). -/
def headMask (hw : BitVec 32) (c : Fin 1024) : EReal :=
  (((IntOp.cmpi .eq hw (BitVec.ofNat 32 (c.val / 256))).toNat : ℝ) : EReal)

/-- The row's four results. -/
def rowOut (xrow : Fin 1024 → EReal) (hw : BitVec 32) (W1 Wm : Fin 1024 → Fin 1024 → EReal) (bm : Fin 1024 → EReal)
    (W2 : Fin 1024 → Fin 4 → EReal) (b2 : Fin 4 → EReal) (o : Fin 4) : EReal :=
  (∑ k : Fin 1024, (layer2 (layer1 xrow W1) Wm bm k * headMask hw k) * W2 k o) * scale + b2 o

/-- The whole result array: entry (n, o) is result o of row n, from row n of x, its head word and the weights. -/
def wholeOut (a0 : (⟨2, ![100000, 1024]⟩ : Shape).Idx → EReal) (a1 : (⟨1, ![100000]⟩ : Shape).Idx → BitVec 32)
    (a2 a3 : (⟨2, ![1024, 1024]⟩ : Shape).Idx → EReal) (a4 : (⟨1, ![1024]⟩ : Shape).Idx → EReal)
    (a5 : (⟨2, ![1024, 4]⟩ : Shape).Idx → EReal) (a6 : (⟨1, ![4]⟩ : Shape).Idx → EReal) :
    (⟨2, ![100000, 4]⟩ : Shape).Idx → EReal :=
  fun i => rowOut (fun k => a0 (ValueIdx.ix2 (i 0 : Fin 100000) k)) (a1 (ValueIdx.ix1 (i 0 : Fin 100000)))
    (fun k q => a2 (ValueIdx.ix2 k q)) (fun k q => a3 (ValueIdx.ix2 k q)) (fun q => a4 (ValueIdx.ix1 q))
    (fun k q => a5 (ValueIdx.ix2 k q)) (fun q => a6 (ValueIdx.ix1 q)) (i 1 : Fin 4)

/-- The gate spelt with a quotient of two literal ones, z · (1 / (1 + e^(-z))), is the gate: the f32 word 0x3F800000 is
    the number one. -/
theorem silu_of_quotient (z : EReal) :
    z * Ideal.div (Ideal.ofBits .f32 0x3F800000#32) (Ideal.ofBits .f32 0x3F800000#32 + Ideal.exp (-z)) = silu z := by
  rw [Ideal.ofBits_one_f32]; rfl

/-- A one-bit word widened to 32 bits and read signed is the bit read unsigned: both are 0 or 1. -/
theorem bit_signed_eq_unsigned (b : BitVec 1) : (((b.setWidth 32).toInt : ℝ) : EReal) = (((b.toNat : ℝ)) : EReal) := by
  have h : b = 0#1 ∨ b = 1#1 := by
    revert b; decide
  rcases h with rfl | rfl <;> simp

/-- Floor division of a lane number by 256 as the kernel computes it on 32-bit words: the truncating quotient, lowered
    by one where the operands' signs differ and the remainder is not zero. -/
def floorDivWord (l : BitVec 32) : BitVec 32 :=
  Scalar.select
    (IntOp.andi
      (IntOp.cmpi .ne (IntOp.subi ((IntOp.cmpi .sgt l 0#32).setWidth 32) ((IntOp.cmpi .slt l 0#32).setWidth 32))
        (Scalar.subi (Scalar.extui (Scalar.cmpi .sgt 256#32 0#32)) (Scalar.extui (Scalar.cmpi .slt 256#32 0#32))))
      (IntOp.cmpi .ne (IntOp.remsi .vector l 256#32) 0#32))
    (IntOp.subi (IntOp.divsi .vector l 256#32) 1#32) (IntOp.divsi .vector l 256#32)

/-- On the lanes 0..1023 it is the plain quotient: no lane is negative, so nothing is lowered (checked lane by lane). -/
theorem floorDivWord_lane : ∀ c : Fin 1024, floorDivWord (BitVec.ofNat 32 (0 * 1024 + c.val)) = BitVec.ofNat 32 (c.val / 256) := by
  decide +kernel

/-- Equality of two words as a bit does not depend on the order of the words. -/
theorem cmpi_eq_comm (a b : BitVec 32) : IntOp.cmpi .eq a b = IntOp.cmpi .eq b a := by
  by_cases h : a = b
  · subst h; rfl
  · have h1 : (a == b) = false := beq_false_of_ne h
    have h2 : (b == a) = false := beq_false_of_ne (fun e => h e.symm)
    show BitVec.ofBool (a == b) = BitVec.ofBool (b == a)
    rw [h1, h2]

end Cert.HeadSpec

end
-- ==== Proof.KernelDots.lean ====
/-
  The kernel's two matrix products read at an entry. A product of a 1000-row block with a 1024-row weight array,
  accumulated into zeros, is at entry (p, c) the plain sum over the 1024 contracted channels k of the block's (p, k)
  entry times the weight's (k, c) entry: the contraction index of the product's dimension record is its one
  coordinate, and the operand indices it names are (p, k) and (k, c).
-/
import proofs.«113978_j20864951124193_1_alg».proof.Proof.Gen.KernelIdeal.Skeleton
import proofs.«113978_j20864951124193_1_alg».proof.Proof.HeadSpec
import Idealize.ShloMosaic.PureOps.Ideal.Laws
import Idealize.ShloMosaic.Lib.ValueIdx

noncomputable section

namespace Cert.KernelIdeal.RowValue

open Cert.KernelIdeal Cert.KernelIdeal.Gen Idealize.ShloMosaic Idealize.ShloMosaic.ValueIdx

/-! ## The product with a 1024 × 1024 weight array -/

theorem lhs_wide_0 (i : S1000x1024.Idx) (q : dot_S1000x1024_S1024x1024_S1000x1024_1_0_0_1_n_n.contr.Idx) :
    (dot_S1000x1024_S1024x1024_S1000x1024_1_0_0_1_n_n.lhsIdx i q 0).val = (i 0).val := by
  unfold DotDims.lhsIdx
  rw [dif_neg (show ¬(0 : Fin S1000x1024.rank) ∈ dot_S1000x1024_S1024x1024_S1000x1024_1_0_0_1_n_n.lhsBatch by decide), dif_pos (show (0 : Fin S1000x1024.rank) ∈ dot_S1000x1024_S1024x1024_S1000x1024_1_0_0_1_n_n.lhsNonContracting by decide)]
  rfl
theorem lhs_wide_1 (i : S1000x1024.Idx) (q : dot_S1000x1024_S1024x1024_S1000x1024_1_0_0_1_n_n.contr.Idx) :
    (dot_S1000x1024_S1024x1024_S1000x1024_1_0_0_1_n_n.lhsIdx i q 1).val = (q ⟨0, by decide⟩).val :=
  dot_S1000x1024_S1024x1024_S1000x1024_1_0_0_1_n_n.lhsIdx_val_of_single rfl i q
theorem rhs_wide_0 (i : S1000x1024.Idx) (q : dot_S1000x1024_S1024x1024_S1000x1024_1_0_0_1_n_n.contr.Idx) :
    (dot_S1000x1024_S1024x1024_S1000x1024_1_0_0_1_n_n.rhsIdx i q 0).val = (q ⟨0, by decide⟩).val :=
  dot_S1000x1024_S1024x1024_S1000x1024_1_0_0_1_n_n.rhsIdx_val_of_single rfl i q
theorem rhs_wide_1 (i : S1000x1024.Idx) (q : dot_S1000x1024_S1024x1024_S1000x1024_1_0_0_1_n_n.contr.Idx) :
    (dot_S1000x1024_S1024x1024_S1000x1024_1_0_0_1_n_n.rhsIdx i q 1).val = (i 1).val := by
  unfold DotDims.rhsIdx
  rw [dif_neg (show ¬(1 : Fin S1024x1024.rank) ∈ dot_S1000x1024_S1024x1024_S1000x1024_1_0_0_1_n_n.rhsBatch by decide), dif_pos (show (1 : Fin S1024x1024.rank) ∈ dot_S1000x1024_S1024x1024_S1000x1024_1_0_0_1_n_n.rhsNonContracting by decide)]
  rfl

/-- Entry (p, c) of a block times a 1024 × 1024 weight array, into zeros: the sum over k of (p, k) times (k, c). -/
theorem matmul_wide_apply {φ₁ φ₂ : FTy} (A : FVec Ideal S1000x1024 φ₁) (B : FVec Ideal S1024x1024 φ₂) (p : Fin 1000) (c : Fin 1024) :
    matmul dot_S1000x1024_S1024x1024_S1000x1024_1_0_0_1_n_n none A B (constant S1000x1024 .f32 0x00000000#32) (ix2 p c)
      = ∑ k : Fin 1024, A (ix2 p k) * B (ix2 k c) := by
  simp only [matmul]
  rw [Ideal.matmul_constant_zero_apply, ← Equiv.sum_comp (contrEquiv1 dot_S1000x1024_S1024x1024_S1000x1024_1_0_0_1_n_n 1024 rfl rfl).symm]
  refine Finset.sum_congr rfl fun k _ => ?_
  have hk := contrEquiv1_symm_val dot_S1000x1024_S1024x1024_S1000x1024_1_0_0_1_n_n 1024 rfl rfl k
  have el : dot_S1000x1024_S1024x1024_S1000x1024_1_0_0_1_n_n.lhsIdx (ix2 p c) ((contrEquiv1 dot_S1000x1024_S1024x1024_S1000x1024_1_0_0_1_n_n 1024 rfl rfl).symm k) = ix2 p k := funext fun a => Fin.ext (by
    match a with
    | ⟨0, _⟩ => exact lhs_wide_0 _ _
    | ⟨1, _⟩ => exact (lhs_wide_1 _ _).trans hk)
  have er : dot_S1000x1024_S1024x1024_S1000x1024_1_0_0_1_n_n.rhsIdx (ix2 p c) ((contrEquiv1 dot_S1000x1024_S1024x1024_S1000x1024_1_0_0_1_n_n 1024 rfl rfl).symm k) = ix2 k c := funext fun a => Fin.ext (by
    match a with
    | ⟨0, _⟩ => exact (rhs_wide_0 _ _).trans hk
    | ⟨1, _⟩ => exact rhs_wide_1 _ _)
  rw [el, er]

/-! ## The product with the 1024 × 4 weight array -/

theorem lhs_narrow_0 (i : S1000x4.Idx) (q : dot_S1000x1024_S1024x4_S1000x4_1_0_0_1_n_n.contr.Idx) :
    (dot_S1000x1024_S1024x4_S1000x4_1_0_0_1_n_n.lhsIdx i q 0).val = (i 0).val := by
  unfold DotDims.lhsIdx
  rw [dif_neg (show ¬(0 : Fin S1000x1024.rank) ∈ dot_S1000x1024_S1024x4_S1000x4_1_0_0_1_n_n.lhsBatch by decide), dif_pos (show (0 : Fin S1000x1024.rank) ∈ dot_S1000x1024_S1024x4_S1000x4_1_0_0_1_n_n.lhsNonContracting by decide)]
  rfl
theorem lhs_narrow_1 (i : S1000x4.Idx) (q : dot_S1000x1024_S1024x4_S1000x4_1_0_0_1_n_n.contr.Idx) :
    (dot_S1000x1024_S1024x4_S1000x4_1_0_0_1_n_n.lhsIdx i q 1).val = (q ⟨0, by decide⟩).val :=
  dot_S1000x1024_S1024x4_S1000x4_1_0_0_1_n_n.lhsIdx_val_of_single rfl i q
theorem rhs_narrow_0 (i : S1000x4.Idx) (q : dot_S1000x1024_S1024x4_S1000x4_1_0_0_1_n_n.contr.Idx) :
    (dot_S1000x1024_S1024x4_S1000x4_1_0_0_1_n_n.rhsIdx i q 0).val = (q ⟨0, by decide⟩).val :=
  dot_S1000x1024_S1024x4_S1000x4_1_0_0_1_n_n.rhsIdx_val_of_single rfl i q
theorem rhs_narrow_1 (i : S1000x4.Idx) (q : dot_S1000x1024_S1024x4_S1000x4_1_0_0_1_n_n.contr.Idx) :
    (dot_S1000x1024_S1024x4_S1000x4_1_0_0_1_n_n.rhsIdx i q 1).val = (i 1).val := by
  unfold DotDims.rhsIdx
  rw [dif_neg (show ¬(1 : Fin S1024x4.rank) ∈ dot_S1000x1024_S1024x4_S1000x4_1_0_0_1_n_n.rhsBatch by decide), dif_pos (show (1 : Fin S1024x4.rank) ∈ dot_S1000x1024_S1024x4_S1000x4_1_0_0_1_n_n.rhsNonContracting by decide)]
  rfl

/-- Entry (p, o) of a block times the 1024 × 4 weight array, into zeros: the sum over k of (p, k) times (k, o). -/
theorem matmul_narrow_apply {φ₁ φ₂ : FTy} (A : FVec Ideal S1000x1024 φ₁) (B : FVec Ideal S1024x4 φ₂) (p : Fin 1000) (o : Fin 4) :
    matmul dot_S1000x1024_S1024x4_S1000x4_1_0_0_1_n_n none A B (constant S1000x4 .f32 0x00000000#32) (ix2 p o)
      = ∑ k : Fin 1024, A (ix2 p k) * B (ix2 k o) := by
  simp only [matmul]
  rw [Ideal.matmul_constant_zero_apply, ← Equiv.sum_comp (contrEquiv1 dot_S1000x1024_S1024x4_S1000x4_1_0_0_1_n_n 1024 rfl rfl).symm]
  refine Finset.sum_congr rfl fun k _ => ?_
  have hk := contrEquiv1_symm_val dot_S1000x1024_S1024x4_S1000x4_1_0_0_1_n_n 1024 rfl rfl k
  have el : dot_S1000x1024_S1024x4_S1000x4_1_0_0_1_n_n.lhsIdx (ix2 p o) ((contrEquiv1 dot_S1000x1024_S1024x4_S1000x4_1_0_0_1_n_n 1024 rfl rfl).symm k) = ix2 p k := funext fun a => Fin.ext (by
    match a with
    | ⟨0, _⟩ => exact lhs_narrow_0 _ _
    | ⟨1, _⟩ => exact (lhs_narrow_1 _ _).trans hk)
  have er : dot_S1000x1024_S1024x4_S1000x4_1_0_0_1_n_n.rhsIdx (ix2 p o) ((contrEquiv1 dot_S1000x1024_S1024x4_S1000x4_1_0_0_1_n_n 1024 rfl rfl).symm k) = ix2 k o := funext fun a => Fin.ext (by
    match a with
    | ⟨0, _⟩ => exact (rhs_narrow_0 _ _).trans hk
    | ⟨1, _⟩ => exact rhs_narrow_1 _ _)
  rw [el, er]

end Cert.KernelIdeal.RowValue

end
-- ==== Proof.KernelRow.lean ====
/-
  The kernel's body at one entry of its output block. The body's stored value at entry (p, o) of a block is the row
  function of row p of the block of x, the head word of that row, and the weight blocks: the two gated layers are the
  first payload, the lane's head (the floor division of the lane number by 256) compared with the row's head word is the
  mask, and the last product with its scale and bias is the second payload.
-/
import proofs.«113978_j20864951124193_1_alg».proof.Proof.KernelDots
import Idealize.ShloMosaic.Lib.Pipeline.Value

noncomputable section

namespace Cert.KernelIdeal.RowValue

open Cert.KernelIdeal Cert.KernelIdeal.Gen Idealize.ShloMosaic Idealize.ShloMosaic.ValueIdx Cert.HeadSpec

theorem logistic_apply {s : Shape} {φ : FTy} (a : FVec Ideal s φ) (i : s.Idx) : logistic a i = Ideal.logistic (a i) := rfl

/-- The middle bias, one row broadcast down the block, at (p, c) is its entry c. -/
theorem bias_mid_apply (bm : FVec Ideal S1x1024 .f32) (p : Fin 1000) (c : Fin 1024) :
    broadcastTo S1000x1024 bm broadcasts_S1x1024_S1000x1024 (ix2 p c) = bm (ix2 (0 : Fin 1) c) :=
  broadcastTo_apply bm broadcasts_S1x1024_S1000x1024 (ix2 p c) (ix2 (0 : Fin 1) c) (fun a => match a with
    | ⟨0, _⟩ => by show 0 = if (1 : Nat) = 1 then 0 else _; rw [if_pos rfl]
    | ⟨1, _⟩ => by show c.val = if (1024 : Nat) = 1 then 0 else c.val; rw [if_neg (by decide)])

/-- The last bias, one row broadcast down the block, at (p, o) is its entry o. -/
theorem bias_out_apply (b2 : FVec Ideal S1x4 .f32) (p : Fin 1000) (o : Fin 4) :
    broadcastTo S1000x4 b2 broadcasts_S1x4_S1000x4 (ix2 p o) = b2 (ix2 (0 : Fin 1) o) :=
  broadcastTo_apply b2 broadcasts_S1x4_S1000x4 (ix2 p o) (ix2 (0 : Fin 1) o) (fun a => match a with
    | ⟨0, _⟩ => by show 0 = if (1 : Nat) = 1 then 0 else _; rw [if_pos rfl]
    | ⟨1, _⟩ => by show o.val = if (4 : Nat) = 1 then 0 else o.val; rw [if_neg (by decide)])

/-- The column of head words, broadcast along the lanes, at (p, c) is row p's head word. -/
theorem heads_apply (hd : IVec S1000x1 32) (p : Fin 1000) (c : Fin 1024) :
    broadcastTo S1000x1024 hd broadcasts_S1000x1_S1000x1024 (ix2 p c) = hd (ix2 p (0 : Fin 1)) :=
  broadcastTo_apply hd broadcasts_S1000x1_S1000x1024 (ix2 p c) (ix2 p (0 : Fin 1)) (fun a => match a with
    | ⟨0, _⟩ => by show p.val = if (1000 : Nat) = 1 then 0 else p.val; rw [if_neg (by decide)]
    | ⟨1, _⟩ => by show 0 = if (1 : Nat) = 1 then 0 else _; rw [if_pos rfl])

/-- The two gated layers at entry (p, c) of the block: the spec's second layer of the spec's first layer of row p. -/
theorem pay2_apply (x : Vec Ideal S1000x1024 .f32) (w1 wm : Vec Ideal S1024x1024 .bf16) (bm : Vec Ideal S1x1024 .f32)
    (p : Fin 1000) (c : Fin 1024) :
    k0_pay2 (F := Ideal) x w1 wm bm (ix2 p c)
      = layer2 (layer1 (fun k => x (ix2 p k)) (fun k q => w1 (ix2 k q))) (fun k q => wm (ix2 k q)) (fun q => bm (ix2 (0 : Fin 1) q)) c := by
  unfold k0_pay2
  simp only [mulf_apply, addf_apply, logistic_apply, broadcast_apply, matmul_wide_apply, truncf_apply, shapeCast_self, bias_mid_apply]
  rfl

theorem cmpi_apply {s : Shape} {w : Nat} (pr : CmpIPredicate) (a b : IVec s w) (i : s.Idx) : cmpi pr a b i = IntOp.cmpi pr (a i) (b i) := rfl

/-- The lanes' heads as the body computes them (the floor division of the lane number by 256): lane k of any row has
    head k / 256, every operation being lane by lane and the floor division on the lane numbers 0..1023 the plain quotient. -/
theorem laneHeads_apply (p : Fin 1000) (k : Fin 1024) :
    select (andi k0_pay5 (cmpi .ne (remsi (iota .tc S1000x1024 32 [1] iota_S1000x1024_d1_w32) (broadcast S1000x1024 256#32)) (broadcast S1000x1024 0#32)))
        (subi k0_pay4 (broadcast S1000x1024 1#32)) k0_pay4 (ix2 p k)
      = BitVec.ofNat 32 (k.val / 256) :=
  (show _ = floorDivWord (BitVec.ofNat 32 (0 * 1024 + k.val)) from rfl).trans (floorDivWord_lane k)

/-- The comparison bit, widened and read as a signed integer, is the spec's mask. -/
theorem mask_word (hw : BitVec 32) (k : Fin 1024) :
    FloatOps.sitofp (F := Ideal) .f32 ((IntOp.cmpi .eq (BitVec.ofNat 32 (k.val / 256)) hw).setWidth 32) = headMask hw k := by
  rw [cmpi_eq_comm]; exact bit_signed_eq_unsigned _

/-- The masked last layer at entry (p, o) of the block, over any second-layer values h2. -/
theorem pay1_apply (h2 : FVec Ideal S1000x1024 .f32) (hd : IVec S1000x1 32) (w2 : Vec Ideal S1024x4 .bf16) (b2 : Vec Ideal S1x4 .f32)
    (p : Fin 1000) (o : Fin 4) :
    k0_pay1 (F := Ideal) h2 hd (iota .tc S1000x1024 32 [1] iota_S1000x1024_d1_w32) 256#32 k0_pay4 k0_pay5 w2 b2 (ix2 p o)
      = (∑ k : Fin 1024, (h2 (ix2 p k) * headMask (hd (ix2 p (0 : Fin 1))) k) * w2 (ix2 k o)) * scale + b2 (ix2 (0 : Fin 1) o) := by
  unfold k0_pay1
  simp only [mulf_apply, addf_apply, broadcast_apply, matmul_narrow_apply, truncf_apply, shapeCast_self, bias_out_apply,
    sitofp_apply, extui_apply, cmpi_apply, heads_apply]
  refine congrArg (fun s : EReal => s * scale + b2 (ix2 (0 : Fin 1) o)) (Finset.sum_congr rfl fun k _ => ?_)
  rw [laneHeads_apply p k, mask_word]

end Cert.KernelIdeal.RowValue

end
-- ==== Proof.Blocks.lean ====
/-
  From blocks to the array. Grid point t of the kernel works on rows 1000·t … 1000·t + 999: its block of x and its
  block of the head column are those rows, every weight block is the whole weight array (the bf16 copies the host makes
  before the call are the arrays themselves at the ideal values, and the reshaped heads and biases are the arrays read
  in row-major order), and what it writes back is those rows of the whole result. The 100 row blocks tile the
  100000 rows, so after the run the result array is the row function of every row.
-/
import proofs.«113978_j20864951124193_1_alg».proof.Proof.Gen.KernelIdeal.Value
import proofs.«113978_j20864951124193_1_alg».proof.Proof.KernelRow
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.RowValue Cert.HeadSpec
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The whole result as a function of the argument arrays as launched. -/
abbrev result (c : Dev nD) : S100000x4.Idx → EReal :=
  wholeOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The arrays the host writes before the call -/

theorem V_heads (c : Dev nD) : (V m c main_v0 : S100000x1.Idx → BitVec 32)
    = shapeCast S100000x1 (m ((c : Thread nD τ).loc main_arg1)) shapeCasts_S100000_S100000x1 := by
  dsimp only [Gen.V, Gen.hostOps0]; after_results; rfl
theorem V_w1 (c : Dev nD) : (V m c main_v1 : S1024x1024.Idx → EReal) = m ((c : Thread nD τ).loc main_arg2) := by
  dsimp only [Gen.V, Gen.hostOps0]; after_results; rfl
theorem V_wm (c : Dev nD) : (V m c main_v2 : S1024x1024.Idx → EReal) = m ((c : Thread nD τ).loc main_arg3) := by
  dsimp only [Gen.V, Gen.hostOps0]; after_results; rfl
theorem V_w2 (c : Dev nD) : (V m c main_v3 : S1024x4.Idx → EReal) = m ((c : Thread nD τ).loc main_arg5) := by
  dsimp only [Gen.V, Gen.hostOps0]; after_results; rfl
theorem V_bm (c : Dev nD) : (V m c main_v4 : S1x1024.Idx → EReal)
    = shapeCast S1x1024 (m ((c : Thread nD τ).loc main_arg4)) shapeCasts_S1024_S1x1024 := by
  dsimp only [Gen.V, Gen.hostOps0]; after_results; rfl
theorem V_b2 (c : Dev nD) : (V m c main_v5 : S1x4.Idx → EReal)
    = shapeCast S1x4 (m ((c : Thread nD τ).loc main_arg6)) shapeCasts_S4_S1x4 := by
  dsimp only [Gen.V, Gen.hostOps0]; after_results; rfl

/-! ## The index maps, decided over the 100 points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 100 := by
  have h : t.val < cfg0.N := t.isLt
  have e : cfg0.N = 100 := N_0
  omega

/-- Row p of point t's block is row 1000·t + p of the array. -/
def rowOf (t : Fin cfg0.N) (p : Fin 1000) : Fin 100000 :=
  ⟨1000 * t.val + p.val, by have := point_lt t; have := p.isLt; omega⟩

/-! ## Each window's block at a point, as entries of its array -/

theorem xblk_apply (c : Dev nD) (t : Fin cfg0.N) (p : Fin 1000) (k : Fin 1024) :
    (iblk m c 0 t : Vec Ideal S1000x1024 .f32) (ix2 p k) = m ((c : Thread nD τ).loc main_arg0) (ix2 (rowOf t p) k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1000 + 1 * p.val = 1000 * t.val + p.val; rw [e0]; omega
  | ⟨1, _⟩ => show win0_0.index t 1 * 1024 + 1 * k.val = k.val; rw [e1]; omega

theorem hblk_apply (c : Dev nD) (t : Fin cfg0.N) (p : Fin 1000) :
    (iblk m c 1 t : Vec Ideal S1000x1 .i32) (ix2 p (0 : Fin 1)) = m ((c : Thread nD τ).loc main_arg1) (ix1 (rowOf t p)) := by
  obtain ⟨-, -, e0, e1, -⟩ := idx_facts t
  unfold iblk
  rw [View.read_apply]
  show V m c main_v0 _ = m (c.tc.loc main_arg1) _
  rw [V_heads]
  refine shapeCast_apply (s := S100000) (t := S100000x1) _ _ _ _ ?_
  rw [Shape.rowMajor_val_one, Shape.rowMajor_val_two]
  show 1000 * t.val + p.val = (win0_1.index t 0 * 1000 + 1 * p.val) * 1 + (win0_1.index t 1 * 1 + 1 * 0)
  rw [e0, e1]; omega

theorem w1blk_apply (c : Dev nD) (t : Fin cfg0.N) (k q : Fin 1024) :
    (iblk m c 2 t : Vec Ideal S1024x1024 .bf16) (ix2 k q) = m ((c : Thread nD τ).loc main_arg2) (ix2 k q) := by
  obtain ⟨-, -, -, -, e0, e1, -⟩ := idx_facts t
  unfold iblk
  rw [View.read_apply]
  show V m c main_v1 _ = m (c.tc.loc main_arg2) _
  rw [V_w1]
  congr 1
  funext a
  apply Fin.ext
  match a with
  | ⟨0, _⟩ => show win0_2.index t 0 * 1024 + 1 * k.val = k.val; rw [e0]; omega
  | ⟨1, _⟩ => show win0_2.index t 1 * 1024 + 1 * q.val = q.val; rw [e1]; omega

theorem wmblk_apply (c : Dev nD) (t : Fin cfg0.N) (k q : Fin 1024) :
    (iblk m c 3 t : Vec Ideal S1024x1024 .bf16) (ix2 k q) = m ((c : Thread nD τ).loc main_arg3) (ix2 k q) := by
  obtain ⟨-, -, -, -, -, -, e0, e1, -⟩ := idx_facts t
  unfold iblk
  rw [View.read_apply]
  show V m c main_v2 _ = m (c.tc.loc main_arg3) _
  rw [V_wm]
  congr 1
  funext a
  apply Fin.ext
  match a with
  | ⟨0, _⟩ => show win0_3.index t 0 * 1024 + 1 * k.val = k.val; rw [e0]; omega
  | ⟨1, _⟩ => show win0_3.index t 1 * 1024 + 1 * q.val = q.val; rw [e1]; omega

theorem bmblk_apply (c : Dev nD) (t : Fin cfg0.N) (q : Fin 1024) :
    (iblk m c 4 t : Vec Ideal S1x1024 .f32) (ix2 (0 : Fin 1) q) = m ((c : Thread nD τ).loc main_arg4) (ix1 q) := by
  obtain ⟨-, -, -, -, -, -, -, -, e0, e1, -⟩ := idx_facts t
  unfold iblk
  rw [View.read_apply]
  show V m c main_v4 _ = m (c.tc.loc main_arg4) _
  rw [V_bm]
  refine shapeCast_apply (s := S1024) (t := S1x1024) _ _ _ _ ?_
  rw [Shape.rowMajor_val_one, Shape.rowMajor_val_two]
  show q.val = (win0_4.index t 0 * 1 + 1 * 0) * 1024 + (win0_4.index t 1 * 1024 + 1 * q.val)
  rw [e0, e1]; omega

theorem w2blk_apply (c : Dev nD) (t : Fin cfg0.N) (k : Fin 1024) (o : Fin 4) :
    (iblk m c 5 t : Vec Ideal S1024x4 .bf16) (ix2 k o) = m ((c : Thread nD τ).loc main_arg5) (ix2 k o) := by
  obtain ⟨-, -, -, -, -, -, -, -, -, -, e0, e1, -⟩ := idx_facts t
  unfold iblk
  rw [View.read_apply]
  show V m c main_v3 _ = m (c.tc.loc main_arg5) _
  rw [V_w2]
  congr 1
  funext a
  apply Fin.ext
  match a with
  | ⟨0, _⟩ => show win0_5.index t 0 * 1024 + 1 * k.val = k.val; rw [e0]; omega
  | ⟨1, _⟩ => show win0_5.index t 1 * 4 + 1 * o.val = o.val; rw [e1]; omega

theorem b2blk_apply (c : Dev nD) (t : Fin cfg0.N) (o : Fin 4) :
    (iblk m c 6 t : Vec Ideal S1x4 .f32) (ix2 (0 : Fin 1) o) = m ((c : Thread nD τ).loc main_arg6) (ix1 o) := by
  obtain ⟨-, -, -, -, -, -, -, -, -, -, -, -, e0, e1, -⟩ := idx_facts t
  unfold iblk
  rw [View.read_apply]
  show V m c main_v5 _ = m (c.tc.loc main_arg6) _
  rw [V_b2]
  refine shapeCast_apply (s := S4) (t := S1x4) _ _ _ _ ?_
  rw [Shape.rowMajor_val_one, Shape.rowMajor_val_two]
  show o.val = (win0_6.index t 0 * 1 + 1 * 0) * 4 + (win0_6.index t 1 * 4 + 1 * o.val)
  rw [e0, e1]; omega

/-! ## What a point writes back -/

/-- WHAT POINT t WRITES BACK is rows 1000·t … 1000·t + 999 of the whole result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1000x1024) hz, View.ld_unit_zero (S := S1000x1) hz, View.ld_unit_zero (S := S1024x1024) hz,
    View.ld_unit_zero (S := S1x1024) hz, View.ld_unit_zero (S := S1024x4) hz, View.ld_unit_zero (S := S1x4) hz]
  obtain ⟨-, -, -, -, -, -, -, -, -, -, -, -, -, -, e0, e1⟩ := idx_facts t
  funext j
  obtain ⟨p, o, rfl⟩ : ∃ (p : Fin 1000) (o : Fin 4), j = ix2 p o := ⟨j 0, j 1, eq_ix2 j⟩
  show k0_pay1 (F := Ideal) (k0_pay2 (iblk m c 0 t) (iblk m c 2 t) (iblk m c 3 t) (iblk m c 4 t)) (k0_pay3 (iblk m c 1 t))
      (iota .tc S1000x1024 32 [1] iota_S1000x1024_d1_w32) 256#32 k0_pay4 k0_pay5 (iblk m c 5 t) (iblk m c 6 t) (ix2 p o)
    = result m c (((cfg0.win 7).blk t).view.emb (ix2 p o))
  have hrow : ((cfg0.win 7).blk t).view.emb (ix2 p o) = ix2 (rowOf t p) o := funext fun a => Fin.ext (by
    match a with
    | ⟨0, _⟩ => show win0_7.index t 0 * 1000 + 1 * p.val = 1000 * t.val + p.val; rw [e0]; omega
    | ⟨1, _⟩ => show win0_7.index t 1 * 4 + 1 * o.val = o.val; rw [e1]; omega)
  rw [hrow]
  refine (pay1_apply (k0_pay2 (iblk m c 0 t) (iblk m c 2 t) (iblk m c 3 t) (iblk m c 4 t)) (k0_pay3 (iblk m c 1 t)) (iblk m c 5 t) (iblk m c 6 t) p o).trans ?_
  have h2 : ∀ k : Fin 1024, k0_pay2 (F := Ideal) (iblk m c 0 t) (iblk m c 2 t) (iblk m c 3 t) (iblk m c 4 t) (ix2 p k)
      = layer2 (layer1 (fun k' => m ((c : Thread nD τ).loc main_arg0) (ix2 (rowOf t p) k')) (fun k' q => m ((c : Thread nD τ).loc main_arg2) (ix2 k' q)))
          (fun k' q => m ((c : Thread nD τ).loc main_arg3) (ix2 k' q)) (fun q => m ((c : Thread nD τ).loc main_arg4) (ix1 q)) k := fun k => by
    rw [pay2_apply (iblk m c 0 t) (iblk m c 2 t) (iblk m c 3 t) (iblk m c 4 t) p k]
    simp only [xblk_apply m c t, w1blk_apply m c t, wmblk_apply m c t, bmblk_apply m c t]
  have hh : k0_pay3 (F := Ideal) (iblk m c 1 t) (ix2 p (0 : Fin 1)) = m ((c : Thread nD τ).loc main_arg1) (ix1 (rowOf t p)) := by
    unfold k0_pay3
    rw [shapeCast_self]
    exact hblk_apply m c t p
  simp only [h2, hh, w2blk_apply m c t, b2blk_apply m c t]
  rfl

/-! ## The row blocks tile the array -/

theorem mem_blk (t : Fin cfg0.N) (i : S100000x4.Idx) :
    i ∈ ((cfg0.win 7).blk t).view.set ↔ ∀ a : Fin 2, win0_7.index t a * S1000x4.size a ≤ (i a).val ∧ (i a).val < win0_7.index t a * S1000x4.size a + S1000x4.size a := by
  show i ∈ ((View.whole main_v6).slice (win0_7.rect t)).set ↔ _
  rw [View.set_slice_whole, Rect.mem_set_unit]
  exact Iff.rfl

/-- Row n is in the block of point n / 1000. -/
theorem covered (i : S100000x4.Idx) : ∃ t : Fin cfg0.N, (cfg0.win 7).flush t = true ∧ i ∈ ((cfg0.win 7).blk t).view.set := by
  have h0 : (i 0).val < 100000 := (i 0).isLt
  have h1 : (i 1).val < 4 := (i 1).isLt
  have hN : cfg0.N = 100 := N_0
  refine ⟨⟨(i 0).val / 1000, by rw [hN]; omega⟩, flush0_7 _, ?_⟩
  obtain ⟨-, -, -, -, -, -, -, -, -, -, -, -, -, -, e0, e1⟩ := idx_facts ⟨(i 0).val / 1000, by rw [hN]; omega⟩
  rw [mem_blk]
  intro a
  match a with
  | ⟨0, _⟩ =>
    show win0_7.index ⟨(i 0).val / 1000, _⟩ 0 * 1000 ≤ (i 0).val ∧ (i 0).val < win0_7.index ⟨(i 0).val / 1000, _⟩ 0 * 1000 + 1000
    rw [e0]; show (i 0).val / 1000 * 1000 ≤ (i 0).val ∧ (i 0).val < (i 0).val / 1000 * 1000 + 1000; omega
  | ⟨1, _⟩ =>
    show win0_7.index ⟨(i 0).val / 1000, _⟩ 1 * 4 ≤ (i 1).val ∧ (i 1).val < win0_7.index ⟨(i 0).val / 1000, _⟩ 1 * 4 + 4
    rw [e1]; omega

/-- THE RESULT ARRAY after the run is the whole result. -/
theorem final (c : Dev nD) : (dats m 0 c).arrAt 7 cfg0.N = result m c :=
  (dats m 0 c).arrAt_eq_of_cover 7 (result m c) (fun t _ => flushed_eq m c t) covered

/-- The kernel's run, read: the result array at the row function of every row, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.ArrayValue

end
-- ==== Proof.RefRow.lean ====
/-
  The reference at one entry of its result. Entry (n, o) of the reference's result is the row function of row n of x,
  the head word of row n and the weights: each stage of the reference, read at an entry, is a stage of the row function —
  the two gated layers (the gate spelt as a quotient of literal ones), the one-hot of the head word spread over
  the 4 × 256 channels and read back through the reshape (channel c of the flat axis is position c / 256 of the head
  axis), and the last layer.
-/
import proofs.«113978_j20864951124193_1_alg».proof.Proof.Gen.ReferenceIdeal.Read
import proofs.«113978_j20864951124193_1_alg».proof.Proof.HeadSpec

noncomputable section

namespace Cert.ReferenceIdeal.RowValue

open Cert.ReferenceIdeal Cert.ReferenceIdeal.Gen Cert.ReferenceIdeal.Read Idealize.ShloMosaic Idealize.ShloMosaic.ValueIdx Cert.HeadSpec

variable (x0 : (⟨S100000x1024, .f32⟩ : BufTy).Contents (Elt Ideal)) (x1 : (⟨S100000, .i32⟩ : BufTy).Contents (Elt Ideal))
  (x2 x3 : (⟨S1024x1024, .f32⟩ : BufTy).Contents (Elt Ideal)) (x4 : (⟨S1024, .f32⟩ : BufTy).Contents (Elt Ideal))
  (x5 : (⟨S1024x4, .f32⟩ : BufTy).Contents (Elt Ideal)) (x6 : (⟨S4, .f32⟩ : BufTy).Contents (Elt Ideal))

/-! ## The operand indices of the three products, by coordinates -/

theorem lidx_v0 (n : Fin 100000) (c k : Fin 1024) : lidx_main_v0 (ix2 n c) k = ix2 n k :=
  funext fun a => Fin.ext (by match a with | ⟨0, _⟩ => rfl | ⟨1, _⟩ => rfl)
theorem ridx_v0 (n : Fin 100000) (c k : Fin 1024) : ridx_main_v0 (ix2 n c) k = ix2 k c :=
  funext fun a => Fin.ext (by match a with | ⟨0, _⟩ => rfl | ⟨1, _⟩ => rfl)
theorem lidx_v4 (n : Fin 100000) (c k : Fin 1024) : lidx_main_v4 (ix2 n c) k = ix2 n k :=
  funext fun a => Fin.ext (by match a with | ⟨0, _⟩ => rfl | ⟨1, _⟩ => rfl)
theorem ridx_v4 (n : Fin 100000) (c k : Fin 1024) : ridx_main_v4 (ix2 n c) k = ix2 k c :=
  funext fun a => Fin.ext (by match a with | ⟨0, _⟩ => rfl | ⟨1, _⟩ => rfl)
theorem lidx_v16 (n : Fin 100000) (o : Fin 4) (k : Fin 1024) : lidx_main_v16 (ix2 n o) k = ix2 n k :=
  funext fun a => Fin.ext (by match a with | ⟨0, _⟩ => rfl | ⟨1, _⟩ => rfl)
theorem ridx_v16 (n : Fin 100000) (o : Fin 4) (k : Fin 1024) : ridx_main_v16 (ix2 n o) k = ix2 k o :=
  funext fun a => Fin.ext (by match a with | ⟨0, _⟩ => rfl | ⟨1, _⟩ => rfl)

/-! ## The stages -/

/-- The first gated layer at (n, c). -/
theorem ref_layer1 (n : Fin 100000) (c : Fin 1024) :
    val_main_v3 (F := Ideal) x0 x2 (ix2 n c) = layer1 (fun k => x0 (ix2 n k)) (fun k q => x2 (ix2 k q)) c := by
  simp only [val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v2_apply, val_main_v0_apply, val_main_v1_apply, val_main_cst_apply,
    lidx_v0, ridx_v0]
  exact silu_of_quotient _

/-- The second gated layer at (n, c), over the first layer's values. -/
theorem ref_layer2 (n : Fin 100000) (c : Fin 1024) :
    val_main_v10 (F := Ideal) x0 x2 x3 x4 (ix2 n c)
      = layer2 (fun k => val_main_v3 (F := Ideal) x0 x2 (ix2 n k)) (fun k q => x3 (ix2 k q)) (fun q => x4 (ix1 q)) c := by
  simp only [val_main_v10_apply, val_main_call1_v5_apply, val_main_call1_v4_apply, val_main_call1_cst_0_apply,
    val_main_call1_v3_apply, val_main_call1_v2_apply, val_main_call1_cst_apply, val_main_call1_v1_apply,
    val_main_call1_v0_apply, val_main_v9_apply, val_main_v6_apply, val_main_v4_apply, val_main_v5_apply,
    val_main_cst_0_apply, val_main_v8_apply, val_main_v7_apply, lidx_v4, ridx_v4]
  have e : idx_main_v7 (idx_main_v8 (ix2 n c)) = ix1 c :=
    funext fun a => Fin.ext (by match a with | ⟨0, _⟩ => rfl)
  rw [e]
  exact silu_of_quotient _

/-- The mask at (n, c): the one-hot of row n's head word at position c / 256. -/
theorem ref_mask (n : Fin 100000) (c : Fin 1024) :
    val_main_v14 (F := Ideal) x1 (ix2 n c) = headMask (x1 (ix1 n)) c := by
  simp only [val_main_v14_apply, val_main_v13_apply, val_main_v12_apply, val_main_v11_apply, val_main_call2_v4_apply,
    val_main_call2_v2_apply, val_main_call2_v0_apply, val_main_call2_v3_apply, val_main_call2_v1_apply]
  have hn : n.val < 100000 := n.isLt
  have hc : c.val < 1024 := c.isLt
  have e0 : idx_main_call2_v0 (idx_main_call2_v2 (idx_main_v12 (idx_main_v13 (idx_main_v14 (ix2 n c))))) = ix1 n :=
    funext fun a => Fin.ext (by
      match a with
      | ⟨0, _⟩ => show (n.val * 1024 + c.val) / 1024 = n.val; omega)
  have e1 : ((ix2 n c 0).val * 1024 + (ix2 n c 1).val) / 256 % 4 = c.val / 256 := by
    show (n.val * 1024 + c.val) / 256 % 4 = c.val / 256; omega
  rw [e0, e1]
  rfl

/-- The last layer at (n, o), over the second layer's values and the mask. -/
theorem ref_out (n : Fin 100000) (o : Fin 4) :
    val_main_v21 (F := Ideal) x0 x1 x2 x3 x4 x5 x6 (ix2 n o)
      = (∑ k : Fin 1024, (val_main_v10 (F := Ideal) x0 x2 x3 x4 (ix2 n k) * val_main_v14 (F := Ideal) x1 (ix2 n k)) * x5 (ix2 k o)) * scale
        + x6 (ix1 o) := by
  simp only [val_main_v21_apply, val_main_v18_apply, val_main_v16_apply, val_main_v17_apply, val_main_cst_1_apply,
    val_main_v20_apply, val_main_v19_apply, val_main_v15_apply, lidx_v16, ridx_v16]
  have e : idx_main_v19 (idx_main_v20 (ix2 n o)) = ix1 o :=
    funext fun a => Fin.ext (by match a with | ⟨0, _⟩ => rfl)
  rw [e]
  rfl

/-- ENTRY (n, o) OF THE REFERENCE'S RESULT is the row function of row n. -/
theorem ref_row (n : Fin 100000) (o : Fin 4) :
    val_main_v21 (F := Ideal) x0 x1 x2 x3 x4 x5 x6 (ix2 n o)
      = rowOut (fun k => x0 (ix2 n k)) (x1 (ix1 n)) (fun k q => x2 (ix2 k q)) (fun k q => x3 (ix2 k q)) (fun q => x4 (ix1 q))
          (fun k q => x5 (ix2 k q)) (fun q => x6 (ix1 q)) o := by
  rw [ref_out]
  simp only [ref_layer2, ref_layer1, ref_mask]
  rfl

end Cert.ReferenceIdeal.RowValue

end
-- ==== Proof.lean ====
/-
  Kernel against reference for a two-layer gated MLP with a head mask and a four-way readout, over the extended reals.

  Both programs send each row of x through: a product with W1 (1024 × 1024) scaled by 1/32, the gate z ↦ z·σ(z); a
  product with W_mid scaled by 1/32 plus b_mid, the gate again; a mask keeping the 256 channels of the row's head
  (channel c belongs to head c / 256); a product with W2 (1024 × 4) scaled by 1/32 plus b2. The kernel does this for
  1000 rows per grid point with bf16 copies of the weights (the same numbers at the ideal values), computes the head of
  a channel by an integer floor division of the lane number, and spells the gate with the logistic operation; the
  reference spells the gate as x · (1 / (1 + e^(-x))) and the mask as a one-hot of the head word spread over a
  [4, 256] axis pair and reshaped flat. Row by row the two are one function (Proof/HeadSpec.lean): no arithmetic law is
  needed beyond reading each sum of products at an index, so finiteness of the inputs is never used. The kernel's
  blocks tile the rows (Proof/Blocks.lean), the kernel's body is that function of its blocks (Proof/KernelRow.lean),
  and each stage of the reference is a stage of it (Proof/RefRow.lean).

  The three programs run and leave their arguments unchanged by the generated frames and the reference's generated
  run; the idealization rewrote nothing, so there is nothing to preserve.
-/
import proofs.«113978_j20864951124193_1_alg».proof.Defs
import proofs.«113978_j20864951124193_1_alg».proof.Proof.Gen.Kernel
import proofs.«113978_j20864951124193_1_alg».proof.Proof.Gen.Kernel.Skeleton
import proofs.«113978_j20864951124193_1_alg».proof.Proof.Gen.Kernel.Launch
import proofs.«113978_j20864951124193_1_alg».proof.Proof.Gen.Kernel.Points
import proofs.«113978_j20864951124193_1_alg».proof.Proof.Gen.Kernel.Frame
import proofs.«113978_j20864951124193_1_alg».proof.Proof.Gen.KernelIdeal
import proofs.«113978_j20864951124193_1_alg».proof.Proof.Gen.KernelIdeal.Skeleton
import proofs.«113978_j20864951124193_1_alg».proof.Proof.Gen.KernelIdeal.Launch
import proofs.«113978_j20864951124193_1_alg».proof.Proof.Gen.KernelIdeal.Points
import proofs.«113978_j20864951124193_1_alg».proof.Proof.Gen.KernelIdeal.Frame
import proofs.«113978_j20864951124193_1_alg».proof.Proof.Gen.ReferenceIdeal
import proofs.«113978_j20864951124193_1_alg».proof.Proof.Gen.Pre_finite_inputs
import proofs.«113978_j20864951124193_1_alg».proof.Proof.Gen.KernelIdeal.Value
import proofs.«113978_j20864951124193_1_alg».proof.Proof.Gen.ReferenceIdeal.Run
import proofs.«113978_j20864951124193_1_alg».proof.Proof.Gen.ReferenceIdeal.Read
import proofs.«113978_j20864951124193_1_alg».proof.Proof.Blocks
import proofs.«113978_j20864951124193_1_alg».proof.Proof.RefRow
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the kernel ends with its result array at the row function of every
    row (the blocks tile the rows) and the reference with its result at the same function, stage by stage. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq _ _ _ _ _ _ _).trans ?_
  obtain ⟨a0, a1, a2, a3, a4, a5, a6⟩ := hagree c
  rw [a0, a1, a2, a3, a4, a5, a6]
  funext i
  obtain ⟨n, o, rfl⟩ : ∃ (n : Fin 100000) (o : Fin 4), i = ix2 n o := ⟨i 0, i 1, eq_ix2 i⟩
  exact Cert.ReferenceIdeal.RowValue.ref_row _ _ _ _ _ _ _ n o

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
